-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn_part1 {F : FTy → Type} [FloatOps F] (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : IVec S2x16x2048x2048 1) (main_arg4 : FVec F S2x16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg4
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_v13 main_v16
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S2x16x2048x2048, .i32⟩
  | .hbm, ⟨6, _⟩ => ⟨S2x16x2048x64, .f32⟩
  | .hbm, ⟨7, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x2048, .i32⟩
  | .local _ .vmem, ⟨9, _⟩ => ⟨S1x1x512x2048, .i32⟩
  | .local _ .vmem, ⟨10, _⟩ => ⟨S1x1x512x64, .f32⟩
  | .local _ .vmem, ⟨11, _⟩ => ⟨S1x1x512x64, .f32⟩
  | .local _ .vmem, ⟨12, _⟩ => ⟨S1x1x512x2048, .f32⟩
  | .local _ .vmem, ⟨13, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  broadcasts_S512x1_S512x64 : S512x1.Broadcasts S512x64
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .f32 = 32 ∨ (Rect.block (s := S2x16x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .i32 = 32 ∨ (Rect.block (s := S2x16x2048x2048) S1x1x512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S2x16x2048x64.size a
  hwx0_5 : ∀ i : grid0.Coords, EltTy.bits .f32 = 32 ∨ (Rect.block (s := S2x16x2048x64) S1x1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x2048.size a ≤ S2x16x2048x2048.size a
  hwx0_6 : ∀ i : grid0.Coords, EltTy.bits .f32 = 32 ∨ (Rect.block (s := S2x16x2048x2048) S1x1x512x2048.size (cc0_transform_6 i) (hinb0_6 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S_, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S_, .f32⟩
  | .hbm, ⟨17, _⟩ => ⟨S2x16x2048, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Masked softmax attention over f32[2, 16, 2048, 64] queries, keys and values, a boolean mask and an additive bias,
  both of shape [2, 16, 2048, 2048], stated once as functions of the argument arrays on the extended reals.

  For a batch `b`, a head `h` and a query row `q` the score row is
    s k = (mask (b,h,q,k) ? fill : ⟨Q (b,h,q,·), K (b,h,k,·)⟩ · scale + bias (b,h,q,k)),      k < 2048,
  the weights are  exp (s k - max s) / ∑ k', exp (s k' - max s),  and the context is the weights' product with V.

  Two arrangements of the same arithmetic are written down.  The first (`scoreRow`, `weights`, `context`) scales the
  inner product after the sum and divides each exponential by the row's sum.  The second (`scoreRowPre`, `weightsRcp`,
  `contextRcp`) scales the query before the inner product and multiplies by the reciprocal `one / sum` once, the
  context after its own sum over the keys.  They agree on finite inputs (AttnLaws.lean); on infinite ones they need not.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- Queries, keys, values: [batch, head, position, feature]. -/
abbrev SQ : Shape := ⟨4, ![2, 16, 2048, 64]⟩
/-- Mask, bias, weights: [batch, head, query, key]. -/
abbrev SW : Shape := ⟨4, ![2, 16, 2048, 2048]⟩

/-- The f32 words the two programs share, as the extended reals they denote. -/
abbrev scale : EReal := Ideal.ofBits .f32 0x3E000000#32
abbrev fill : EReal := Ideal.ofBits .f32 0xCE6E6B28#32
abbrev negInf : EReal := Ideal.ofBits .f32 0xFF800000#32
abbrev one : EReal := Ideal.ofBits .f32 0x3F800000#32

/-! ## One row -/

/-- A row's maximum, folded from the bottom word. -/
def rowMax {n : Nat} (s : Fin n → EReal) : EReal := (Finset.univ : Finset (Fin n)).fold max negInf s

/-- The exponential of an entry's distance below the row's maximum. -/
def expShift {n : Nat} (s : Fin n → EReal) (k : Fin n) : EReal := Ideal.exp (s k - rowMax s)

/-- The row's normaliser. -/
def expSum {n : Nat} (s : Fin n → EReal) : EReal := ∑ k : Fin n, expShift s k

/-! ## The arrays -/

variable (Q K V : SQ.Idx → EReal) (M : SW.Idx → BitVec 1) (B : SW.Idx → EReal)

/-- The score row of query `(b, h, q)`: inner product, then the scale, then the bias; the fill where masked. -/
def scoreRow (b : Fin 2) (h : Fin 16) (q : Fin 2048) : Fin 2048 → EReal := fun k =>
  Scalar.select (M (ix4 b h q k)) fill ((∑ d : Fin 64, Q (ix4 b h q d) * K (ix4 b h k d)) * scale + B (ix4 b h q k))

/-- The same with the query scaled before the inner product. -/
def scoreRowPre (b : Fin 2) (h : Fin 16) (q : Fin 2048) : Fin 2048 → EReal := fun k =>
  Scalar.select (M (ix4 b h q k)) fill ((∑ d : Fin 64, (Q (ix4 b h q d) * scale) * K (ix4 b h k d)) + B (ix4 b h q k))

/-- The attention weights: each shifted exponential over the row's sum. -/
def weights : SW.Idx → EReal := fun i =>
  Ideal.div (expShift (scoreRow Q K M B (i 0) (i 1) (i 2)) (i 3)) (expSum (scoreRow Q K M B (i 0) (i 1) (i 2)))

/-- The context: the weights' product with the values over the keys. -/
def context : SQ.Idx → EReal := fun i =>
  ∑ k : Fin 2048, weights Q K M B (ix4 (i 0) (i 1) (i 2) k) * V (ix4 (i 0) (i 1) k (i 3))

/-- The weights by the reciprocal of the row's sum, over the pre-scaled scores. -/
def weightsRcp : SW.Idx → EReal := fun i =>
  expShift (scoreRowPre Q K M B (i 0) (i 1) (i 2)) (i 3) * Ideal.div one (expSum (scoreRowPre Q K M B (i 0) (i 1) (i 2)))

/-- The context with the reciprocal applied after the sum over the keys. -/
def contextRcp : SQ.Idx → EReal := fun i =>
  (∑ k : Fin 2048, expShift (scoreRowPre Q K M B (i 0) (i 1) (i 2)) k * V (ix4 (i 0) (i 1) k (i 3)))
    * Ideal.div one (expSum (scoreRowPre Q K M B (i 0) (i 1) (i 2)))

end Cert.Attention

end
-- ==== Proof.AttnBlock.lean ====
/-
  One grid point of the attention kernel, as functions of the blocks it is handed: a [1, 1, 512, 64] block of queries,
  whole [1, 1, 2048, 64] key and value blocks of one batch and head, and [1, 1, 512, 2048] blocks of the bias and of the
  mask, the mask widened to 32-bit words and tested against zero.  Row `r` of the point's two result blocks is the
  reciprocal arrangement of AttnSpec.lean on that row's scores.
-/
import proofs.«424582_j27659589386439_3_alg».proof.Proof.AttnSpec

noncomputable section

namespace Cert.Attention

open Idealize.ShloMosaic Idealize.ShloMosaic.ValueIdx

/-- A block of query rows, and of the context rows written back. -/
abbrev SQb : Shape := ⟨4, ![1, 1, 512, 64]⟩
/-- All the keys, or all the values, of one batch and head. -/
abbrev SKb : Shape := ⟨4, ![1, 1, 2048, 64]⟩
/-- A block of bias rows, of mask rows, and of the weight rows written back. -/
abbrev SWb : Shape := ⟨4, ![1, 1, 512, 2048]⟩

variable (xq : SQb.Idx → EReal) (xk xv : SKb.Idx → EReal) (xb : SWb.Idx → EReal) (xm : SWb.Idx → BitVec 32)

/-- Row `r` of the point's scores: the scaled query row against every key, plus the bias, the fill where the mask word
    is not zero. -/
def blockScoreRow (r : Fin 512) : Fin 2048 → EReal := fun k =>
  Scalar.select (IntOp.cmpi .ne (xm (ix4 0 0 r k)) 0#32) fill
    ((∑ d : Fin 64, (xq (ix4 0 0 r d) * scale) * xk (ix4 0 0 k d)) + xb (ix4 0 0 r k))

/-- The weights block the point writes back. -/
def blockWeights : SWb.Idx → EReal := fun y =>
  expShift (blockScoreRow xq xk xb xm (y 2)) (y 3) * Ideal.div one (expSum (blockScoreRow xq xk xb xm (y 2)))

/-- The context block the point writes back. -/
def blockContext : SQb.Idx → EReal := fun y =>
  (∑ k : Fin 2048, expShift (blockScoreRow xq xk xb xm (y 2)) k * xv (ix4 0 0 k (y 3)))
    * Ideal.div one (expSum (blockScoreRow xq xk xb xm (y 2)))

end Cert.Attention

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.AttnKernelBody.lean ====
/-
  What one grid point's body leaves in its two output blocks, read index by index: the weights block is
  `blockWeights` and the context block is `blockContext` of the point's input blocks (AttnBlock.lean).

  The body casts each [1, 1, rows, lanes] block to a matrix, scales the query rows, multiplies them with the keys
  (contracting the feature axis of both), adds the bias, puts the fill where the mask word is not zero, takes each row's
  maximum and the exponentials of the distances below it, sums those along the row, and forms the reciprocal of the
  sum once per row.  The weights are the exponentials times that reciprocal; the context is the exponentials' product
  with the values (contracting the key axis), times the same reciprocal.  Changes of float format are the identity on
  the extended reals.
-/
import proofs.«424582_j27659589386439_3_alg».proof.Proof.Gen.KernelIdeal.Value
import proofs.«424582_j27659589386439_3_alg».proof.Proof.AttnBlock
import proofs.«424582_j27659589386439_3_alg».proof.Proof.LibRowCasts
import Idealize.ShloMosaic.Lib.Pipeline.Value
import Idealize.ShloMosaic.Lib.ValueIdx
import Idealize.ShloMosaic.PureOps.Ideal.Laws

noncomputable section

namespace Cert.Attention

open Cert.KernelIdeal Cert.KernelIdeal.Gen Idealize.ShloMosaic Idealize.ShloMosaic.ValueIdx Idealize.ShloMosaic.RowCasts

/-! ## Two casts read at an index -/

/-- A `[1, 1, a, b]` block cast to the matrix `[a, b]`, at `(p, q)`: the block at `(0, 0, p, q)`. -/
theorem shapeCast_block_matrix_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 0 0 p q) :=
  shapeCast_apply x h _ _ (by
    rw [Shape.rowMajor_val_four, Shape.rowMajor_val_two]
    show ((0 * 1 + 0) * a + p.val) * b + q.val = p.val * b + q.val
    simp only [Nat.zero_mul, Nat.zero_add, Nat.add_zero])

/-- The matrix `[a, b]` cast back to a `[1, 1, a, b]` block, at `y`: the matrix at `(y 2, y 3)`. -/
theorem shapeCast_matrix_block_apply {α : Type} {a b : ℕ} (x : (⟨2, ![a, b]⟩ : Shape).Idx → α)
    (h : (⟨2, ![a, b]⟩ : Shape).ShapeCasts ⟨4, ![1, 1, a, b]⟩) (y : (⟨4, ![1, 1, a, b]⟩ : Shape).Idx) :
    shapeCast ⟨4, ![1, 1, a, b]⟩ x h y = x (ix2 (y 2) (y 3)) :=
  shapeCast_apply x h _ _ (by
    rw [Shape.rowMajor_val_four, Shape.rowMajor_val_two]
    have h0 : (y 0).val < 1 := (y 0).isLt
    have h1 : (y 1).val < 1 := (y 1).isLt
    show (y 2).val * b + (y 3).val = (((y 0).val * 1 + (y 1).val) * a + (y 2).val) * b + (y 3).val
    have e0 : (y 0).val = 0 := by omega
    have e1 : (y 1).val = 0 := by omega
    rw [e0, e1]
    simp only [Nat.zero_mul, Nat.zero_add, Nat.add_zero])

/-! ## The two matrix products' operand indices -/

theorem lhs_scores_0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_scores_1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem rhs_scores_0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_scores_1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

theorem lhs_context_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_context_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem rhs_context_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem rhs_context_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The scaled queries against the keys, into a zero accumulator, at `(r, k)`: the sum over the 64 features. -/
theorem scores_matmul_apply (a : FVec Ideal S512x64 .bf16) (b : FVec Ideal S2048x64 .bf16) (r : Fin 512) (k : Fin 2048) :
    matmul dot_S512x64_S2048x64_S512x2048_1_1_0_0_n_n none a b (constant S512x2048 .f32 0x00000000#32) (ix2 r k)
      = ∑ d : Fin 64, a (ix2 r d) * b (ix2 k d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r k) ((ValueIdx.contrEquiv1 dot_S512x64_S2048x64_S512x2048_1_1_0_0_n_n 64 rfl rfl).symm d) = ix2 r d := funext fun ax => Fin.ext (by
    match ax with
    | ⟨0, _⟩ => exact lhs_scores_0 _ _
    | ⟨1, _⟩ => exact (lhs_scores_1 _ _).trans hk)
  have er : dot_S512x64_S2048x64_S512x2048_1_1_0_0_n_n.rhsIdx (ix2 r k) ((ValueIdx.contrEquiv1 dot_S512x64_S2048x64_S512x2048_1_1_0_0_n_n 64 rfl rfl).symm d) = ix2 k d := funext fun ax => Fin.ext (by
    match ax with
    | ⟨0, _⟩ => exact rhs_scores_0 _ _
    | ⟨1, _⟩ => exact (rhs_scores_1 _ _).trans hk)
  rw [el, er]

/-- The exponentials against the values, into a zero accumulator, at `(r, d)`: the sum over the 2048 keys. -/
theorem context_matmul_apply (a : FVec Ideal S512x2048 .bf16) (b : FVec Ideal S2048x64 .bf16) (r : Fin 512) (d : Fin 64) :
    matmul dot_S512x2048_S2048x64_S512x64_1_0_0_1_n_n none a b (constant S512x64 .f32 0x00000000#32) (ix2 r d)
      = ∑ k : Fin 2048, a (ix2 r k) * b (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun ax => Fin.ext (by
    match ax with
    | ⟨0, _⟩ => exact lhs_context_0 _ _
    | ⟨1, _⟩ => exact (lhs_context_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun ax => Fin.ext (by
    match ax with
    | ⟨0, _⟩ => exact (rhs_context_0 _ _).trans hk
    | ⟨1, _⟩ => exact rhs_context_1 _ _)
  rw [el, er]

/-! ## The point's scores, their row maxima, exponentials and row sums -/

/-- Every index of a `[1, 1, a, b]` block is `(0, 0, r, k)`. -/
theorem exists_block_coords {a b : ℕ} (y : (⟨4, ![1, 1, a, b]⟩ : Shape).Idx) :
    ∃ (r : Fin a) (k : Fin b), y = ix4 (0 : Fin 1) (0 : Fin 1) r k :=
  ⟨y 2, y 3, funext fun ax => by
    match ax with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl⟩

variable (x0 : Vec Ideal S1x1x512x64 .f32) (x1 x2 : Vec Ideal S1x1x2048x64 .f32)
  (x3 : Vec Ideal S1x1x512x2048 .f32) (x4 : Vec Ideal S1x1x512x2048 .i32)

/-- The masked scores of the point as one [512, 2048] vector of the loaded blocks. -/
def scoresVec : FVec Ideal S512x2048 .f32 :=
  select (cmpi .ne (shapeCast S512x2048 x4 shapeCasts_S1x1x512x2048_S512x2048) (constantI S512x2048 32 0#32))
    (broadcast S512x2048 (Scalar.ofBits .f32 0xCE6E6B28#32))
    (addf (matmul dot_S512x64_S2048x64_S512x2048_1_1_0_0_n_n none
        (truncf .bf16 (mulf (shapeCast S512x64 x0 shapeCasts_S1x1x512x64_S512x64) (broadcast S512x64 (Scalar.ofBits .f32 0x3E000000#32))) bitsLt_bf16_f32)
        (truncf .bf16 (shapeCast S2048x64 x1 shapeCasts_S1x1x2048x64_S2048x64) bitsLt_bf16_f32)
        (constant S512x2048 .f32 0x00000000#32))
      (shapeCast S512x2048 x3 shapeCasts_S1x1x512x2048_S512x2048))

/-- The exponentials' payload is `exp (scores - row maxima)`. -/
theorem expPayload_eq : k0_pay4 x0 x1 x3 x4
    = exp (subf (scoresVec x0 x1 x3 x4) (broadcastTo S512x2048 (shapeCast S512x1 (multiReduction .maximumf [1] S512 (scoresVec x0 x1 x3 x4) 0xFF800000#32 reduces_S512x2048_S512 (.inl rfl) rfl) shapeCasts_S512_S512x1) broadcasts_S512x1_S512x2048)) := rfl

/-- The scores at `(r, k)` are row `r`'s score against key `k`. -/
theorem scoresVec_apply (r : Fin 512) (k : Fin 2048) :
    scoresVec x0 x1 x3 x4 (ix2 r k) = blockScoreRow x0 x1 x3 x4 r k := by
  unfold scoresVec blockScoreRow
  rw [select_apply]
  show Scalar.select (IntOp.cmpi .ne (shapeCast S512x2048 x4 shapeCasts_S1x1x512x2048_S512x2048 (ix2 r k)) 0#32) (Ideal.ofBits .f32 0xCE6E6B28#32)
      (matmul dot_S512x64_S2048x64_S512x2048_1_1_0_0_n_n none _ _ (constant S512x2048 .f32 0x00000000#32) (ix2 r k)
        + shapeCast S512x2048 x3 shapeCasts_S1x1x512x2048_S512x2048 (ix2 r k)) = _
  rw [scores_matmul_apply, shapeCast_block_matrix_apply x4, shapeCast_block_matrix_apply x3]
  refine congrArg (fun z => Scalar.select _ _ (z + _)) (Finset.sum_congr rfl fun d _ => ?_)
  show shapeCast S512x64 x0 shapeCasts_S1x1x512x64_S512x64 (ix2 r d) * Ideal.ofBits .f32 0x3E000000#32
      * shapeCast S2048x64 x1 shapeCasts_S1x1x2048x64_S2048x64 (ix2 k d) = _
  rw [shapeCast_block_matrix_apply x0, shapeCast_block_matrix_apply x1]

/-- Where row `r`'s reduction finds its `k`-th operand. -/
theorem lift_row (r : Fin 512) (k : Fin 2048) :
    (reduces_S512x2048_S512 : S512x2048.Reduces [1] S512).lift (ix1 r) k = ix2 r k :=
  funext fun ax => Fin.ext (by match ax with | ⟨0, _⟩ => rfl | ⟨1, _⟩ => rfl)

/-- Row `r`'s maximum. -/
theorem rowMax_apply (r : Fin 512) :
    multiReduction .maximumf [1] S512 (scoresVec x0 x1 x3 x4) 0xFF800000#32 reduces_S512x2048_S512 (.inl rfl) rfl (ix1 r)
      = rowMax (blockScoreRow x0 x1 x3 x4 r) := by
  refine (Ideal.multiReduction_maximumf_single (scoresVec x0 x1 x3 x4) 0xFF800000#32 reduces_S512x2048_S512 (.inl rfl) rfl (ix1 r)).trans ?_
  unfold rowMax
  refine congrArg (fun f => (Finset.univ : Finset (Fin 2048)).fold max (Ideal.ofBits .f32 0xFF800000#32) f) (funext fun (k : Fin 2048) => ?_)
  show scoresVec x0 x1 x3 x4 ((reduces_S512x2048_S512 : S512x2048.Reduces [1] S512).lift (ix1 r) k) = _
  exact (congrArg (scoresVec x0 x1 x3 x4) (lift_row r k)).trans (scoresVec_apply x0 x1 x3 x4 r k)

/-- The exponential of row `r`'s score against key `k`, shifted by the row's maximum. -/
theorem expPayload_apply (r : Fin 512) (k : Fin 2048) :
    k0_pay4 x0 x1 x3 x4 (ix2 r k) = expShift (blockScoreRow x0 x1 x3 x4 r) k := by
  rw [expPayload_eq]
  unfold expShift
  show Ideal.exp (scoresVec x0 x1 x3 x4 (ix2 r k) - broadcastTo S512x2048 (shapeCast S512x1 (multiReduction .maximumf [1] S512 (scoresVec x0 x1 x3 x4) 0xFF800000#32 reduces_S512x2048_S512 (.inl rfl) rfl) shapeCasts_S512_S512x1) broadcasts_S512x1_S512x2048 (ix2 r k)) = _
  refine congrArg Ideal.exp ?_
  refine congrArg₂ (· - ·) (scoresVec_apply x0 x1 x3 x4 r k) ?_
  refine (broadcastTo_column_apply _ broadcasts_S512x1_S512x2048 r k).trans ?_
  refine (shapeCast_column_apply _ shapeCasts_S512_S512x1 r (0 : Fin 1)).trans ?_
  exact rowMax_apply x0 x1 x3 x4 r

/-- Row `r`'s sum of exponentials. -/
theorem expSum_apply (r : Fin 512) :
    multiReduction .add [1] S512 (k0_pay4 x0 x1 x3 x4) 0x00000000#32 reduces_S512x2048_S512 (.inl rfl) rfl (ix1 r)
      = expSum (blockScoreRow x0 x1 x3 x4 r) := by
  refine (Ideal.multiReduction_add_single (k0_pay4 x0 x1 x3 x4) 0x00000000#32 reduces_S512x2048_S512 (.inl rfl) rfl (ix1 r)).trans ?_
  unfold expSum
  refine Finset.sum_congr rfl fun (k : Fin 2048) _ => ?_
  show k0_pay4 x0 x1 x3 x4 ((reduces_S512x2048_S512 : S512x2048.Reduces [1] S512).lift (ix1 r) k) = _
  exact (congrArg (k0_pay4 x0 x1 x3 x4) (lift_row r k)).trans (expPayload_apply x0 x1 x3 x4 r k)

/-- The reciprocal of row `r`'s sum, as the body keeps it in a column. -/
theorem rcpPayload_apply (r : Fin 512) (u : Fin 1) :
    k0_pay5 x0 x1 x3 x4 (ix2 r u) = Ideal.div one (expSum (blockScoreRow x0 x1 x3 x4 r)) := by
  show Ideal.div (Ideal.ofBits .f32 0x3F800000#32) (shapeCast S512x1 (multiReduction .add [1] S512 (k0_pay4 x0 x1 x3 x4) 0x00000000#32 reduces_S512x2048_S512 (.inl rfl) rfl) shapeCasts_S512_S512x1 (ix2 r u)) = _
  refine congrArg (Ideal.div _) ?_
  refine (shapeCast_column_apply _ shapeCasts_S512_S512x1 r u).trans ?_
  exact expSum_apply x0 x1 x3 x4 r

/-! ## The two output blocks -/

theorem hz4 : (![0, 0, 0, 0] : Fin 4 → Nat) = fun _ => 0 := funext fun a => by fin_cases a <;> rfl

/-- The weights block after the body, at `(0, 0, r, k)`. -/
theorem out6_apply (r : Fin 512) (k : Fin 2048) :
    out0_6 (F := Ideal) x0 x1 x2 x3 x4 (ix4 (0 : Fin 1) (0 : Fin 1) r k)
      = expShift (blockScoreRow x0 x1 x3 x4 r) k * Ideal.div one (expSum (blockScoreRow x0 x1 x3 x4 r)) := by
  unfold out0_6
  rw [Cert.KernelIdeal.Value.canon6_eq]
  simp only [View.ld_unit_zero (S := S1x1x512x64) hz4, View.ld_unit_zero (S := S1x1x2048x64) hz4, View.ld_unit_zero (S := S1x1x512x2048) hz4]
  have e0 : Cert.KernelIdeal.Value.ix6_0 (ix4 (0 : Fin 1) (0 : Fin 1) r k) = ix2 r k := funext fun ax => Fin.ext (by match ax with | ⟨0, _⟩ => rfl | ⟨1, _⟩ => rfl)
  have e1 : Cert.KernelIdeal.Value.ix6_1 (ix4 (0 : Fin 1) (0 : Fin 1) r k) = ix1 r := funext fun ax => Fin.ext (by match ax with | ⟨0, _⟩ => rfl)
  show k0_pay4 x0 x1 x3 x4 (Cert.KernelIdeal.Value.ix6_0 (ix4 (0 : Fin 1) (0 : Fin 1) r k)) * Ideal.div (Ideal.ofBits .f32 0x3F800000#32) (multiReduction .add [1] S512 (k0_pay4 x0 x1 x3 x4) 0x00000000#32 reduces_S512x2048_S512 (.inl rfl) rfl (Cert.KernelIdeal.Value.ix6_1 (ix4 (0 : Fin 1) (0 : Fin 1) r k))) = _
  rw [e0, e1]
  exact congrArg₂ (· * ·) (expPayload_apply x0 x1 x3 x4 r k) (congrArg (Ideal.div _) (expSum_apply x0 x1 x3 x4 r))

/-- The weights block after the body. -/
theorem out6_eq : out0_6 (F := Ideal) x0 x1 x2 x3 x4 = blockWeights x0 x1 x3 x4 := by
  funext y
  obtain ⟨r, k, rfl⟩ := exists_block_coords y
  exact out6_apply x0 x1 x2 x3 x4 r k

/-- The context block after the body, at `(0, 0, r, d)`. -/
theorem out5_apply (r : Fin 512) (d : Fin 64) :
    out0_5 (F := Ideal) x0 x1 x2 x3 x4 (ix4 (0 : Fin 1) (0 : Fin 1) r d)
      = (∑ k : Fin 2048, expShift (blockScoreRow x0 x1 x3 x4 r) k * x2 (ix4 0 0 k d))
          * Ideal.div one (expSum (blockScoreRow x0 x1 x3 x4 r)) := by
  unfold out0_5
  rw [View.canon_unit_zero hz4]
  simp only [View.ld_unit_zero (S := S1x1x512x64) hz4, View.ld_unit_zero (S := S1x1x2048x64) hz4, View.ld_unit_zero (S := S1x1x512x2048) hz4]
  show shapeCast S1x1x512x64 (mulf (matmul dot_S512x2048_S2048x64_S512x64_1_0_0_1_n_n none (k0_pay6 x0 x1 x3 x4) (k0_pay3 x2) (constant S512x64 .f32 0x00000000#32))
      (broadcastTo S512x64 (k0_pay5 x0 x1 x3 x4) broadcasts_S512x1_S512x64)) shapeCasts_S512x64_S1x1x512x64 (ix4 (0 : Fin 1) (0 : Fin 1) r d) = _
  refine (shapeCast_matrix_block_apply _ shapeCasts_S512x64_S1x1x512x64 (ix4 (0 : Fin 1) (0 : Fin 1) r d)).trans ?_
  show matmul dot_S512x2048_S2048x64_S512x64_1_0_0_1_n_n none (k0_pay6 x0 x1 x3 x4) (k0_pay3 x2) (constant S512x64 .f32 0x00000000#32) (ix2 r d)
      * broadcastTo S512x64 (k0_pay5 x0 x1 x3 x4) broadcasts_S512x1_S512x64 (ix2 r d) = _
  refine congrArg₂ (· * ·) ?_ ?_
  · refine (context_matmul_apply _ _ r d).trans (Finset.sum_congr rfl fun k _ => ?_)
    show k0_pay4 x0 x1 x3 x4 (ix2 r k) * shapeCast S2048x64 x2 shapeCasts_S1x1x2048x64_S2048x64 (ix2 k d) = _
    exact congrArg₂ (· * ·) (expPayload_apply x0 x1 x3 x4 r k) (shapeCast_block_matrix_apply x2 _ k d)
  · exact (broadcastTo_column_apply _ broadcasts_S512x1_S512x64 r d).trans (rcpPayload_apply x0 x1 x3 x4 r 0)

/-- The context block after the body. -/
theorem out5_eq : out0_5 (F := Ideal) x0 x1 x2 x3 x4 = blockContext x0 x1 x2 x3 x4 := by
  funext y
  obtain ⟨r, d, rfl⟩ := exists_block_coords y
  exact out5_apply x0 x1 x2 x3 x4 r d

end Cert.Attention

end
-- ==== Proof.AttnKernelArrays.lean ====
/-
  The attention kernel from one grid point's blocks to the whole arrays.  The grid is [2, 16, 4]: point (b, h, qi) is
  handed rows 512 * qi … 512 * qi + 511 of the queries, the bias and the mask of batch b and head h, and all 2048 keys
  and values of that batch and head; it writes back the same rows of the context and of the weights.  Each block read is
  the whole array at (block index × block size + the coordinate inside the block), the block indices are decided over
  the 128 points, and the blocks of either result tile its array — so each result array ends at the reciprocal
  arrangement of AttnSpec.lean of the argument arrays.  The mask reaches the kernel widened to 32-bit words by the one
  operation before the kernel; testing a widened bit against zero gives the bit back.
-/
import proofs.«424582_j27659589386439_3_alg».proof.Proof.AttnKernelBody
import Idealize.ShloMosaic.Lib.Pipeline.Value
import Idealize.ShloMosaic.Lib.ValueIdx
import Idealize.ShloMosaic.Lib.StableHlo.Run

noncomputable section

namespace Cert.Attention

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The windows' index maps, decided once over the 128 grid points: every window's block index agrees with the
    weights window's on the batch and head axes; the query, bias, mask and context windows also on the row-block axis,
    where the key and value windows stay at zero; every window is at zero on the last axis; and the ranges. -/
theorem idx_facts : ∀ t : Fin cfg0.N,
    (win0_0.index t 0 = win0_6.index t 0 ∧ win0_0.index t 1 = win0_6.index t 1 ∧ win0_0.index t 2 = win0_6.index t 2 ∧ win0_0.index t 3 = 0)
    ∧ (win0_1.index t 0 = win0_6.index t 0 ∧ win0_1.index t 1 = win0_6.index t 1 ∧ win0_1.index t 2 = 0 ∧ win0_1.index t 3 = 0)
    ∧ (win0_2.index t 0 = win0_6.index t 0 ∧ win0_2.index t 1 = win0_6.index t 1 ∧ win0_2.index t 2 = 0 ∧ win0_2.index t 3 = 0)
    ∧ (win0_3.index t 0 = win0_6.index t 0 ∧ win0_3.index t 1 = win0_6.index t 1 ∧ win0_3.index t 2 = win0_6.index t 2 ∧ win0_3.index t 3 = 0)
    ∧ (win0_4.index t 0 = win0_6.index t 0 ∧ win0_4.index t 1 = win0_6.index t 1 ∧ win0_4.index t 2 = win0_6.index t 2 ∧ win0_4.index t 3 = 0)
    ∧ (win0_5.index t 0 = win0_6.index t 0 ∧ win0_5.index t 1 = win0_6.index t 1 ∧ win0_5.index t 2 = win0_6.index t 2 ∧ win0_5.index t 3 = 0)
    ∧ (win0_6.index t 0 ≤ 1 ∧ win0_6.index t 1 ≤ 15 ∧ win0_6.index t 2 ≤ 3 ∧ win0_6.index t 3 = 0) :=
  (by decide +kernel : ∀ t : Fin grid0.N, _)

/-- Every batch, head and block of 512 query rows is some grid point's block. -/
theorem idx_onto : ∀ (b : Fin 2) (h : Fin 16) (qi : Fin 4), ∃ t : Fin cfg0.N, win0_6.index t = ![b.val, h.val, qi.val, 0] :=
  (by decide +kernel : ∀ (b : Fin 2) (h : Fin 16) (qi : Fin 4), ∃ t : Fin grid0.N, win0_6.index t = ![b.val, h.val, qi.val, 0])

/-- A one-bit word widened to 32 bits differs from zero exactly when the bit is set. -/
theorem cmpi_ne_setWidth (b : BitVec 1) : IntOp.cmpi .ne (b.setWidth 32) 0#32 = b := by
  revert b; decide

section Reads

variable (Q K W : SQ.Idx → EReal) (M : SW.Idx → BitVec 1) (B : SW.Idx → EReal)
variable (xq : SQb.Idx → EReal) (xk xv : SKb.Idx → EReal) (xb : SWb.Idx → EReal) (xm : SWb.Idx → BitVec 32)

/-- When row `r` of the query, bias and mask blocks is row `q` of batch `b` and head `h` of the whole arrays, and the
    key block is all the keys of that batch and head, row `r` of the block's scores is the arrays' score row. -/
theorem blockScoreRow_eq (r : Fin 512) (b : Fin 2) (h : Fin 16) (q : Fin 2048)
    (hq : ∀ d, xq (ix4 0 0 r d) = Q (ix4 b h q d))
    (hk : ∀ k d, xk (ix4 0 0 k d) = K (ix4 b h k d))
    (hb : ∀ k, xb (ix4 0 0 r k) = B (ix4 b h q k))
    (hm : ∀ k, xm (ix4 0 0 r k) = (M (ix4 b h q k)).setWidth 32) :
    blockScoreRow xq xk xb xm r = scoreRowPre Q K M B b h q := by
  funext k
  unfold blockScoreRow scoreRowPre
  simp only [hq, hk, hb, hm, cmpi_ne_setWidth]

/-- The weights block at `y` is the arrays' weights at the index `i` it is written to. -/
theorem blockWeights_eq (y : SWb.Idx) (i : SW.Idx)
    (hq : ∀ d, xq (ix4 0 0 (y 2) d) = Q (ix4 (i 0) (i 1) (i 2) d))
    (hk : ∀ k d, xk (ix4 0 0 k d) = K (ix4 (i 0) (i 1) k d))
    (hb : ∀ k, xb (ix4 0 0 (y 2) k) = B (ix4 (i 0) (i 1) (i 2) k))
    (hm : ∀ k, xm (ix4 0 0 (y 2) k) = (M (ix4 (i 0) (i 1) (i 2) k)).setWidth 32)
    (h3 : (y 3).val = (i 3).val) :
    blockWeights xq xk xb xm y = weightsRcp Q K M B i := by
  have hrow := blockScoreRow_eq Q K M B xq xk xb xm (y 2) (i 0) (i 1) (i 2) hq hk hb hm
  have e3 : (y 3 : Fin 2048) = i 3 := Fin.ext h3
  show expShift (blockScoreRow xq xk xb xm (y 2)) (y 3) * Ideal.div one (expSum (blockScoreRow xq xk xb xm (y 2)))
    = expShift (scoreRowPre Q K M B (i 0) (i 1) (i 2)) (i 3) * Ideal.div one (expSum (scoreRowPre Q K M B (i 0) (i 1) (i 2)))
  rw [hrow, e3]

/-- The context block at `y` is the arrays' context at the index `i` it is written to. -/
theorem blockContext_eq (y : SQb.Idx) (i : SQ.Idx)
    (hq : ∀ d, xq (ix4 0 0 (y 2) d) = Q (ix4 (i 0) (i 1) (i 2) d))
    (hk : ∀ k d, xk (ix4 0 0 k d) = K (ix4 (i 0) (i 1) k d))
    (hv : ∀ k, xv (ix4 0 0 k (y 3)) = W (ix4 (i 0) (i 1) k (i 3)))
    (hb : ∀ k, xb (ix4 0 0 (y 2) k) = B (ix4 (i 0) (i 1) (i 2) k))
    (hm : ∀ k, xm (ix4 0 0 (y 2) k) = (M (ix4 (i 0) (i 1) (i 2) k)).setWidth 32) :
    blockContext xq xk xv xb xm y = contextRcp Q K W M B i := by
  have hrow := blockScoreRow_eq Q K M B xq xk xb xm (y 2) (i 0) (i 1) (i 2) hq hk hb hm
  show (∑ k : Fin 2048, expShift (blockScoreRow xq xk xb xm (y 2)) k * xv (ix4 0 0 k (y 3))) * Ideal.div one (expSum (blockScoreRow xq xk xb xm (y 2)))
    = (∑ k : Fin 2048, expShift (scoreRowPre Q K M B (i 0) (i 1) (i 2)) k * W (ix4 (i 0) (i 1) k (i 3))) * Ideal.div one (expSum (scoreRowPre Q K M B (i 0) (i 1) (i 2)))
  rw [hrow]
  simp only [hv]

end Reads

/-- The mask window's array when the region is entered: the one host operation before it widened the boolean mask,
    element by element, to 32-bit words. -/
theorem mask_array (c : Dev nD) :
    (V m c main_v0 : S2x16x2048x2048.Idx → BitVec 32) = extui 32 (m ((c : Thread nD τ).loc main_arg3)) natLt_1_32 := by
  dsimp only [Gen.V, Gen.hostOps0]; after_results

/-- What a grid point writes back to the weights array is its block of the whole arrays' weights: the point's query, bias
    and mask blocks are the rows `512 * qi + r` of batch `b` and head `h`, and its key block is all of that batch's and
    head's keys, `(b, h, qi)` the block index of the weights window there. -/
theorem flushed_weights (c : Dev nD) (t : Fin cfg0.N) :
    (dats m 0 c).flushed 6 t = ((cfg0.win 6).blk t).view.read (Elt Ideal)
      (weightsRcp (V m c main_arg0) (V m c main_arg1) (m ((c : Thread nD τ).loc main_arg3)) (V m c main_arg4)) := by
  rw [flushed6, out6_eq]
  obtain ⟨⟨a0, a1, a2, a3⟩, ⟨b0, b1, b2, b3⟩, -, ⟨d0, d1, d2, d3⟩, ⟨e0, e1, e2, e3⟩, -, ⟨r0, r1, r2, r3⟩⟩ := idx_facts t
  funext y
  show blockWeights (iblk m c 0 t) (iblk m c 1 t) (iblk m c 3 t) (iblk m c 4 t) y
    = weightsRcp (V m c main_arg0) (V m c main_arg1) (m ((c : Thread nD τ).loc main_arg3)) (V m c main_arg4) (((cfg0.win 6).blk t).view.emb y)
  have hy0 : (y 0).val < 1 := (y 0).isLt
  have hy1 : (y 1).val < 1 := (y 1).isLt
  have hy2 : (y 2).val < 512 := (y 2).isLt
  have hy3 : (y 3).val < 2048 := (y 3).isLt
  refine blockWeights_eq _ _ _ _ _ _ _ _ y _ (fun d => ?_) (fun k d => ?_) (fun k => ?_) (fun k => ?_) ?_
  · show V m c main_arg0 (((cfg0.win 0).blk t).view.emb (ix4 0 0 (y 2) d)) = V m c main_arg0 _
    refine congrArg (V m c main_arg0) (funext fun a => Fin.ext ?_)
    match a with
    | ⟨0, _⟩ => show win0_0.index t 0 * 1 + 1 * 0 = win0_6.index t 0 * 1 + 1 * (y 0).val; omega
    | ⟨1, _⟩ => show win0_0.index t 1 * 1 + 1 * 0 = win0_6.index t 1 * 1 + 1 * (y 1).val; omega
    | ⟨2, _⟩ => show win0_0.index t 2 * 512 + 1 * (y 2).val = win0_6.index t 2 * 512 + 1 * (y 2).val; omega
    | ⟨3, _⟩ => show win0_0.index t 3 * 64 + 1 * d.val = d.val; omega
  · show V m c main_arg1 (((cfg0.win 1).blk t).view.emb (ix4 0 0 k d)) = V m c main_arg1 _
    refine congrArg (V m c main_arg1) (funext fun a => Fin.ext ?_)
    match a with
    | ⟨0, _⟩ => show win0_1.index t 0 * 1 + 1 * 0 = win0_6.index t 0 * 1 + 1 * (y 0).val; omega
    | ⟨1, _⟩ => show win0_1.index t 1 * 1 + 1 * 0 = win0_6.index t 1 * 1 + 1 * (y 1).val; omega
    | ⟨2, _⟩ => show win0_1.index t 2 * 2048 + 1 * k.val = k.val; omega
    | ⟨3, _⟩ => show win0_1.index t 3 * 64 + 1 * d.val = d.val; omega
  · show V m c main_arg4 (((cfg0.win 3).blk t).view.emb (ix4 0 0 (y 2) k)) = V m c main_arg4 _
    refine congrArg (V m c main_arg4) (funext fun a => Fin.ext ?_)
    match a with
    | ⟨0, _⟩ => show win0_3.index t 0 * 1 + 1 * 0 = win0_6.index t 0 * 1 + 1 * (y 0).val; omega
    | ⟨1, _⟩ => show win0_3.index t 1 * 1 + 1 * 0 = win0_6.index t 1 * 1 + 1 * (y 1).val; omega
    | ⟨2, _⟩ => show win0_3.index t 2 * 512 + 1 * (y 2).val = win0_6.index t 2 * 512 + 1 * (y 2).val; omega
    | ⟨3, _⟩ => show win0_3.index t 3 * 2048 + 1 * k.val = k.val; omega
  · show V m c main_v0 (((cfg0.win 4).blk t).view.emb (ix4 0 0 (y 2) k)) = _
    refine (congrFun (mask_array m c) _).trans ?_
    rw [extui_apply]
    refine congrArg (fun j => (m ((c : Thread nD τ).loc main_arg3) j).setWidth 32) (funext fun a => Fin.ext ?_)
    match a with
    | ⟨0, _⟩ => show win0_4.index t 0 * 1 + 1 * 0 = win0_6.index t 0 * 1 + 1 * (y 0).val; omega
    | ⟨1, _⟩ => show win0_4.index t 1 * 1 + 1 * 0 = win0_6.index t 1 * 1 + 1 * (y 1).val; omega
    | ⟨2, _⟩ => show win0_4.index t 2 * 512 + 1 * (y 2).val = win0_6.index t 2 * 512 + 1 * (y 2).val; omega
    | ⟨3, _⟩ => show win0_4.index t 3 * 2048 + 1 * k.val = k.val; omega
  · show (y 3).val = win0_6.index t 3 * 2048 + 1 * (y 3).val
    omega

/-- An index of the weights array is in a point's block iff each coordinate is in the block's range on its axis. -/
theorem mem_blk_weights (t : Fin cfg0.N) (i : S2x16x2048x2048.Idx) :
    i ∈ ((cfg0.win 6).blk t).view.set ↔ ∀ a : Fin 4, win0_6.index t a * S1x1x512x2048.size a ≤ (i a).val
      ∧ (i a).val < win0_6.index t a * S1x1x512x2048.size a + S1x1x512x2048.size a := by
  show i ∈ ((View.whole main_v1_1).slice (win0_6.rect t)).set ↔ _
  rw [View.set_slice_whole, Rect.mem_set_unit]
  exact Iff.rfl

/-- The blocks tile the weights array: row `q` of batch `b` and head `h` is in the block of the point whose block index
    is `(b, h, q / 512)`. -/
theorem cover_weights (i : S2x16x2048x2048.Idx) :
    ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_6.index t 0 = (i 0).val := congrFun ht 0
  have q1 : win0_6.index t 1 = (i 1).val := congrFun ht 1
  have q2 : win0_6.index t 2 = (i 2).val / 512 := congrFun ht 2
  have q3 : win0_6.index t 3 = 0 := congrFun ht 3
  refine ⟨t, flush0_6 t, ?_⟩
  rw [mem_blk_weights]
  intro a
  match a with
  | ⟨0, _⟩ => show win0_6.index t 0 * 1 ≤ (i 0).val ∧ (i 0).val < win0_6.index t 0 * 1 + 1; omega
  | ⟨1, _⟩ => show win0_6.index t 1 * 1 ≤ (i 1).val ∧ (i 1).val < win0_6.index t 1 * 1 + 1; omega
  | ⟨2, _⟩ => show win0_6.index t 2 * 512 ≤ (i 2).val ∧ (i 2).val < win0_6.index t 2 * 512 + 512; omega
  | ⟨3, _⟩ => show win0_6.index t 3 * 2048 ≤ (i 3).val ∧ (i 3).val < win0_6.index t 3 * 2048 + 2048; omega

/-- THE WEIGHTS ARRAY after the run: the reciprocal arrangement of the attention weights of the argument arrays. -/
theorem final_weights (c : Dev nD) : (dats m 0 c).arrAt 6 cfg0.N
    = weightsRcp (m ((c : Thread nD τ).loc main_arg0)) (m ((c : Thread nD τ).loc main_arg1))
        (m ((c : Thread nD τ).loc main_arg3)) (m ((c : Thread nD τ).loc main_arg4)) := by
  have h := (dats m 0 c).arrAt_eq_of_cover 6
    (weightsRcp (V m c main_arg0) (V m c main_arg1) (m ((c : Thread nD τ).loc main_arg3)) (V m c main_arg4))
    (fun t _ => flushed_weights m c t) cover_weights
  rw [V_main_arg0, V_main_arg1, V_main_arg4] at h
  exact h

/-- What a grid point writes back to the context array is its block of the whole arrays' context: the rows as for the
    weights, and the point's value block is all of that batch's and head's values. -/
theorem flushed_context (c : Dev nD) (t : Fin cfg0.N) :
    (dats m 0 c).flushed 5 t = ((cfg0.win 5).blk t).view.read (Elt Ideal)
      (contextRcp (V m c main_arg0) (V m c main_arg1) (V m c main_arg2) (m ((c : Thread nD τ).loc main_arg3)) (V m c main_arg4)) := by
  rw [flushed5, out5_eq]
  obtain ⟨⟨a0, a1, a2, a3⟩, ⟨b0, b1, b2, b3⟩, ⟨v0, v1, v2, v3⟩, ⟨d0, d1, d2, d3⟩, ⟨e0, e1, e2, e3⟩, ⟨f0, f1, f2, f3⟩, ⟨r0, r1, r2, r3⟩⟩ := idx_facts t
  funext y
  show blockContext (iblk m c 0 t) (iblk m c 1 t) (iblk m c 2 t) (iblk m c 3 t) (iblk m c 4 t) y
    = contextRcp (V m c main_arg0) (V m c main_arg1) (V m c main_arg2) (m ((c : Thread nD τ).loc main_arg3)) (V m c main_arg4) (((cfg0.win 5).blk t).view.emb y)
  have hy0 : (y 0).val < 1 := (y 0).isLt
  have hy1 : (y 1).val < 1 := (y 1).isLt
  have hy2 : (y 2).val < 512 := (y 2).isLt
  have hy3 : (y 3).val < 64 := (y 3).isLt
  refine blockContext_eq _ _ _ _ _ _ _ _ _ _ y _ (fun d => ?_) (fun k d => ?_) (fun k => ?_) (fun k => ?_) (fun k => ?_)
  · show V m c main_arg0 (((cfg0.win 0).blk t).view.emb (ix4 0 0 (y 2) d)) = V m c main_arg0 _
    refine congrArg (V m c main_arg0) (funext fun a => Fin.ext ?_)
    match a with
    | ⟨0, _⟩ => show win0_0.index t 0 * 1 + 1 * 0 = win0_5.index t 0 * 1 + 1 * (y 0).val; omega
    | ⟨1, _⟩ => show win0_0.index t 1 * 1 + 1 * 0 = win0_5.index t 1 * 1 + 1 * (y 1).val; omega
    | ⟨2, _⟩ => show win0_0.index t 2 * 512 + 1 * (y 2).val = win0_5.index t 2 * 512 + 1 * (y 2).val; omega
    | ⟨3, _⟩ => show win0_0.index t 3 * 64 + 1 * d.val = d.val; omega
  · show V m c main_arg1 (((cfg0.win 1).blk t).view.emb (ix4 0 0 k d)) = V m c main_arg1 _
    refine congrArg (V m c main_arg1) (funext fun a => Fin.ext ?_)
    match a with
    | ⟨0, _⟩ => show win0_1.index t 0 * 1 + 1 * 0 = win0_5.index t 0 * 1 + 1 * (y 0).val; omega
    | ⟨1, _⟩ => show win0_1.index t 1 * 1 + 1 * 0 = win0_5.index t 1 * 1 + 1 * (y 1).val; omega
    | ⟨2, _⟩ => show win0_1.index t 2 * 2048 + 1 * k.val = k.val; omega
    | ⟨3, _⟩ => show win0_1.index t 3 * 64 + 1 * d.val = d.val; omega
  · show V m c main_arg2 (((cfg0.win 2).blk t).view.emb (ix4 0 0 k (y 3))) = V m c main_arg2 _
    refine congrArg (V m c main_arg2) (funext fun a => Fin.ext ?_)
    match a with
    | ⟨0, _⟩ => show win0_2.index t 0 * 1 + 1 * 0 = win0_5.index t 0 * 1 + 1 * (y 0).val; omega
    | ⟨1, _⟩ => show win0_2.index t 1 * 1 + 1 * 0 = win0_5.index t 1 * 1 + 1 * (y 1).val; omega
    | ⟨2, _⟩ => show win0_2.index t 2 * 2048 + 1 * k.val = k.val; omega
    | ⟨3, _⟩ => show win0_2.index t 3 * 64 + 1 * (y 3).val = win0_5.index t 3 * 64 + 1 * (y 3).val; omega
  · show V m c main_arg4 (((cfg0.win 3).blk t).view.emb (ix4 0 0 (y 2) k)) = V m c main_arg4 _
    refine congrArg (V m c main_arg4) (funext fun a => Fin.ext ?_)
    match a with
    | ⟨0, _⟩ => show win0_3.index t 0 * 1 + 1 * 0 = win0_5.index t 0 * 1 + 1 * (y 0).val; omega
    | ⟨1, _⟩ => show win0_3.index t 1 * 1 + 1 * 0 = win0_5.index t 1 * 1 + 1 * (y 1).val; omega
    | ⟨2, _⟩ => show win0_3.index t 2 * 512 + 1 * (y 2).val = win0_5.index t 2 * 512 + 1 * (y 2).val; omega
    | ⟨3, _⟩ => show win0_3.index t 3 * 2048 + 1 * k.val = k.val; omega
  · show V m c main_v0 (((cfg0.win 4).blk t).view.emb (ix4 0 0 (y 2) k)) = _
    refine (congrFun (mask_array m c) _).trans ?_
    rw [extui_apply]
    refine congrArg (fun j => (m ((c : Thread nD τ).loc main_arg3) j).setWidth 32) (funext fun a => Fin.ext ?_)
    match a with
    | ⟨0, _⟩ => show win0_4.index t 0 * 1 + 1 * 0 = win0_5.index t 0 * 1 + 1 * (y 0).val; omega
    | ⟨1, _⟩ => show win0_4.index t 1 * 1 + 1 * 0 = win0_5.index t 1 * 1 + 1 * (y 1).val; omega
    | ⟨2, _⟩ => show win0_4.index t 2 * 512 + 1 * (y 2).val = win0_5.index t 2 * 512 + 1 * (y 2).val; omega
    | ⟨3, _⟩ => show win0_4.index t 3 * 2048 + 1 * k.val = k.val; omega

/-- An index of the context array is in a point's block iff each coordinate is in the block's range on its axis. -/
theorem mem_blk_context (t : Fin cfg0.N) (i : S2x16x2048x64.Idx) :
    i ∈ ((cfg0.win 5).blk t).view.set ↔ ∀ a : Fin 4, win0_5.index t a * S1x1x512x64.size a ≤ (i a).val
      ∧ (i a).val < win0_5.index t a * S1x1x512x64.size a + S1x1x512x64.size a := by
  show i ∈ ((View.whole main_v1_0).slice (win0_5.rect t)).set ↔ _
  rw [View.set_slice_whole, Rect.mem_set_unit]
  exact Iff.rfl

/-- The blocks tile the context array, by the same point as for the weights. -/
theorem cover_context (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_6.index t 0 = (i 0).val := congrFun ht 0
  have q1 : win0_6.index t 1 = (i 1).val := congrFun ht 1
  have q2 : win0_6.index t 2 = (i 2).val / 512 := congrFun ht 2
  obtain ⟨-, -, -, -, -, ⟨f0, f1, f2, f3⟩, -⟩ := idx_facts t
  refine ⟨t, flush0_5 t, ?_⟩
  rw [mem_blk_context]
  intro a
  match a with
  | ⟨0, _⟩ => show win0_5.index t 0 * 1 ≤ (i 0).val ∧ (i 0).val < win0_5.index t 0 * 1 + 1; omega
  | ⟨1, _⟩ => show win0_5.index t 1 * 1 ≤ (i 1).val ∧ (i 1).val < win0_5.index t 1 * 1 + 1; omega
  | ⟨2, _⟩ => show win0_5.index t 2 * 512 ≤ (i 2).val ∧ (i 2).val < win0_5.index t 2 * 512 + 512; omega
  | ⟨3, _⟩ => show win0_5.index t 3 * 64 ≤ (i 3).val ∧ (i 3).val < win0_5.index t 3 * 64 + 64; omega

/-- THE CONTEXT ARRAY after the run: the reciprocal arrangement of the attention context of the argument arrays. -/
theorem final_context (c : Dev nD) : (dats m 0 c).arrAt 5 cfg0.N
    = contextRcp (m ((c : Thread nD τ).loc main_arg0)) (m ((c : Thread nD τ).loc main_arg1)) (m ((c : Thread nD τ).loc main_arg2))
        (m ((c : Thread nD τ).loc main_arg3)) (m ((c : Thread nD τ).loc main_arg4)) := by
  have h := (dats m 0 c).arrAt_eq_of_cover 5
    (contextRcp (V m c main_arg0) (V m c main_arg1) (V m c main_arg2) (m ((c : Thread nD τ).loc main_arg3)) (V m c main_arg4))
    (fun t _ => flushed_context m c t) cover_context
  rw [V_main_arg0, V_main_arg1, V_main_arg2, V_main_arg4] at h
  exact h

/-- The kernel's run, read: the two result arrays at the reciprocal arrangement of the argument arrays, the arguments
    unchanged. -/
theorem kernel_run : θ_run defs (onTc (τ := τ) (main (F := Ideal))) ⟨m, fun _ => 0, ρ⟩ fun r => ∀ c : Dev nD,
      r.2.mem ((c : Thread nD τ).loc main_v1_0)
        = contextRcp (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v1_1)
        = weightsRcp (m ((c : Thread nD τ).loc main_arg0)) (m ((c : Thread nD τ).loc main_arg1))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_context m c), (h c).2.1.trans (final_weights m c), (h c).2.2⟩)
    (run_blocks m ρ)

end Cert.Attention

end
-- ==== Proof.AttnLaws.lean ====
/-
  The two arrangements of masked softmax attention in AttnSpec.lean agree on finite inputs.

  On real queries, keys and biases every score is a real number, so a row's maximum is real, every shifted
  exponential is a positive real and the row's normaliser is a positive real L.  Then one / L is the real L⁻¹,
  p * (one / L) = p / L, and the reciprocal moves inside a finite sum of reals.  Scaling the query before the
  inner product is the same as scaling the inner product, again because the sums are sums of reals.
-/
import proofs.«424582_j27659589386439_3_alg».proof.Proof.AttnSpec
import Mathlib.Data.EReal.Inv
import Mathlib.Data.Finset.Fold
import Mathlib.Analysis.Complex.Exponential
import Mathlib.Algebra.BigOperators.Group.Finset.Basic
import Mathlib.Algebra.BigOperators.Ring.Finset

noncomputable section

namespace Cert.Attention

open Idealize.ShloMosaic Idealize.ShloMosaic.ValueIdx

/-! ## The four words -/

/-- The scale word is the real 1/8. -/
theorem scale_eq : scale = (((1 / 8 : ℝ)) : EReal) := by
  simp [scale, Ideal.ofBits, Ideal.ieee, -EReal.coe_mul]; norm_num

/-- The fill word is a real number. -/
theorem fill_real : ∃ r : ℝ, fill = (r : EReal) := by
  refine ⟨-(15625000 * 2 ^ 6), ?_⟩
  simp [fill, Ideal.ofBits, Ideal.ieee, -EReal.coe_mul]

/-- The bottom word is -∞. -/
theorem negInf_eq : negInf = ⊥ := by
  simp [negInf, Ideal.ofBits, Ideal.ieee]

/-- The unit word is 1. -/
theorem one_eq : one = 1 := by
  simp [one, Ideal.ofBits, Ideal.ieee, -EReal.coe_mul]; norm_num

/-! ## Finite sums of reals inside the extended reals -/

/-- The inclusion of the reals commutes with finite sums. -/
theorem coe_sum {ι : Type} (t : Finset ι) (f : ι → ℝ) :
    ((∑ i ∈ t, f i : ℝ) : EReal) = ∑ i ∈ t, (f i : EReal) := by
  induction t using Finset.cons_induction with
  | empty => simp
  | cons a t ha ih => rw [Finset.sum_cons, Finset.sum_cons, EReal.coe_add, ih]

/-- Scaling the left factor of every product scales the sum of the products. -/
theorem sum_scale_left {n : Nat} (a b : Fin n → ℝ) (c : ℝ) :
    (∑ d, ((a d : EReal) * (c : EReal)) * (b d : EReal)) = (∑ d, (a d : EReal) * (b d : EReal)) * (c : EReal) := by
  simp only [← EReal.coe_mul, ← coe_sum]
  refine congrArg _ ?_
  rw [Finset.sum_mul]
  exact Finset.sum_congr rfl fun d _ => by ring

/-! ## Division by a nonzero real -/

/-- Dividing by a nonzero real is multiplying by its real inverse. -/
theorem div_coe_inv {L : ℝ} (hL : L ≠ 0) (x : EReal) : Ideal.div x (L : EReal) = x * ((L⁻¹ : ℝ) : EReal) := by
  rw [Ideal.div_coe hL, one_div]

/-- The reciprocal of a nonzero real. -/
theorem div_one_coe {L : ℝ} (hL : L ≠ 0) : Ideal.div one (L : EReal) = ((L⁻¹ : ℝ) : EReal) := by
  rw [div_coe_inv hL, one_eq, one_mul]

/-! ## One row of real scores -/

section Row

variable {n : Nat} [NeZero n] (s : Fin n → ℝ)

/-- The maximum of a nonempty row of reals is a real: it lies strictly between -∞, below the row's first entry,
    and +∞, above every entry. -/
theorem rowMax_real : ∃ m : ℝ, rowMax (fun k => (s k : EReal)) = (m : EReal) := by
  have hbot : (⊥ : EReal) < rowMax (fun k => (s k : EReal)) := by
    rw [rowMax, Finset.lt_fold_max]
    exact Or.inr ⟨0, Finset.mem_univ _, EReal.bot_lt_coe _⟩
  have htop : rowMax (fun k => (s k : EReal)) < ⊤ := by
    rw [rowMax, Finset.fold_max_lt, negInf_eq]
    exact ⟨bot_lt_top, fun k _ => EReal.coe_lt_top _⟩
  exact ⟨_, (EReal.coe_toReal htop.ne hbot.ne').symm⟩

/-- Every shifted exponential is a real, and the row's normaliser is their sum, a nonzero real. -/
theorem row_real : ∃ (p : Fin n → ℝ) (L : ℝ), L ≠ 0 ∧ (∀ k, expShift (fun j => (s j : EReal)) k = (p k : EReal)) ∧
    expSum (fun j => (s j : EReal)) = (L : EReal) := by
  obtain ⟨m, hm⟩ := rowMax_real s
  have hp : ∀ k, expShift (fun j => (s j : EReal)) k = ((Real.exp (s k - m) : ℝ) : EReal) := by
    intro k
    rw [expShift, hm, ← EReal.coe_sub, Ideal.exp_coe]
  refine ⟨fun k => Real.exp (s k - m), ∑ k, Real.exp (s k - m), ?_, hp, ?_⟩
  · have hpos : 0 < ∑ k : Fin n, Real.exp (s k - m) :=
      Finset.sum_pos (fun k _ => Real.exp_pos _) ⟨0, Finset.mem_univ _⟩
    exact hpos.ne'
  · rw [expSum, coe_sum]
    exact Finset.sum_congr rfl fun k _ => hp k

/-- A shifted exponential times the reciprocal of the normaliser is the exponential over the normaliser. -/
theorem row_weights (k : Fin n) :
    expShift (fun j => (s j : EReal)) k * Ideal.div one (expSum (fun j => (s j : EReal)))
      = Ideal.div (expShift (fun j => (s j : EReal)) k) (expSum (fun j => (s j : EReal))) := by
  obtain ⟨p, L, hL, hp, hS⟩ := row_real s
  rw [hS, div_one_coe hL, div_coe_inv hL]

/-- The reciprocal of the normaliser, applied after the sum over the row against real values, is the sum of the
    normalised weights against the values. -/
theorem row_context (v : Fin n → ℝ) :
    (∑ k, expShift (fun j => (s j : EReal)) k * (v k : EReal)) * Ideal.div one (expSum (fun j => (s j : EReal)))
      = ∑ k, Ideal.div (expShift (fun j => (s j : EReal)) k) (expSum (fun j => (s j : EReal))) * (v k : EReal) := by
  obtain ⟨p, L, hL, hp, hS⟩ := row_real s
  rw [hS, div_one_coe hL]
  simp only [div_coe_inv hL, hp, ← EReal.coe_mul, ← coe_sum]
  refine congrArg _ ?_
  rw [Finset.sum_mul]
  exact Finset.sum_congr rfl fun k _ => by ring

end Row

/-! ## The arrays -/

section Arrays

variable (Q K V : SQ.Idx → EReal) (M : SW.Idx → BitVec 1) (B : SW.Idx → EReal)

/-- On real queries and keys, scaling the query before the inner product gives the same score row. -/
theorem scoreRowPre_eq (hQ : ∀ i, ∃ r : ℝ, Q i = (r : EReal)) (hK : ∀ i, ∃ r : ℝ, K i = (r : EReal))
    (b : Fin 2) (h : Fin 16) (q : Fin 2048) : scoreRowPre Q K M B b h q = scoreRow Q K M B b h q := by
  choose qr hq using hQ
  choose kr hk using hK
  funext k
  simp only [scoreRowPre, scoreRow, hq, hk, scale_eq]
  rw [sum_scale_left]

/-- On real queries, keys and biases every score is real: the fill where masked, else a real inner product, scaled
    and biased. -/
theorem scoreRow_real (hQ : ∀ i, ∃ r : ℝ, Q i = (r : EReal)) (hK : ∀ i, ∃ r : ℝ, K i = (r : EReal))
    (hB : ∀ i, ∃ r : ℝ, B i = (r : EReal)) (b : Fin 2) (h : Fin 16) (q : Fin 2048) :
    ∃ s : Fin 2048 → ℝ, scoreRow Q K M B b h q = fun k => (s k : EReal) := by
  choose qr hq using hQ
  choose kr hk using hK
  choose br hb using hB
  have hreal : ∀ k, ∃ r : ℝ, scoreRow Q K M B b h q k = (r : EReal) := by
    intro k
    simp only [scoreRow, Scalar.select]
    split_ifs
    · exact fill_real
    · refine ⟨(∑ d, qr (ix4 b h q d) * kr (ix4 b h k d)) * (1 / 8) + br (ix4 b h q k), ?_⟩
      simp only [hq, hk, hb, scale_eq, ← EReal.coe_mul, ← coe_sum, ← EReal.coe_add]
  choose s hs using hreal
  exact ⟨s, funext hs⟩

theorem weightsRcp_eq_weights (Q K : SQ.Idx → EReal) (M : SW.Idx → BitVec 1) (B : SW.Idx → EReal)
    (hQ : ∀ i, ∃ r : ℝ, Q i = (r : EReal)) (hK : ∀ i, ∃ r : ℝ, K i = (r : EReal)) (hB : ∀ i, ∃ r : ℝ, B i = (r : EReal)) :
    weightsRcp Q K M B = weights Q K M B := by
  funext i
  obtain ⟨s, hs⟩ := scoreRow_real Q K M B hQ hK hB (i 0) (i 1) (i 2)
  rw [weightsRcp, weights, scoreRowPre_eq Q K M B hQ hK (i 0) (i 1) (i 2), hs]
  exact row_weights s (i 3)

theorem contextRcp_eq_context (Q K V : SQ.Idx → EReal) (M : SW.Idx → BitVec 1) (B : SW.Idx → EReal)
    (hQ : ∀ i, ∃ r : ℝ, Q i = (r : EReal)) (hK : ∀ i, ∃ r : ℝ, K i = (r : EReal)) (hV : ∀ i, ∃ r : ℝ, V i = (r : EReal))
    (hB : ∀ i, ∃ r : ℝ, B i = (r : EReal)) :
    contextRcp Q K V M B = context Q K V M B := by
  funext i
  obtain ⟨s, hs⟩ := scoreRow_real Q K M B hQ hK hB (i 0) (i 1) (i 2)
  choose v hv using hV
  show (∑ k : Fin 2048, expShift (scoreRowPre Q K M B (i 0) (i 1) (i 2)) k * V (ix4 (i 0) (i 1) k (i 3)))
        * Ideal.div one (expSum (scoreRowPre Q K M B (i 0) (i 1) (i 2)))
      = ∑ k : Fin 2048, Ideal.div (expShift (scoreRow Q K M B (i 0) (i 1) (i 2)) k)
          (expSum (scoreRow Q K M B (i 0) (i 1) (i 2))) * V (ix4 (i 0) (i 1) k (i 3))
  rw [scoreRowPre_eq Q K M B hQ hK (i 0) (i 1) (i 2), hs]
  simp only [hv]
  exact row_context s (fun k => v (ix4 (i 0) (i 1) k (i 3)))

end Arrays

end Cert.Attention

end
-- ==== Proof.AttnReference.lean ====
/-
  The reference program computes the attention of AttnSpec.lean, stage by stage.

  Read at an index, its score stage is the masked, scaled and biased inner product of a query row with a key row; its
  max-reduce over the key axis, joined with the bottom word, is the row's maximum; the exponentials of the shifted
  scores and their sum over the key axis are the row's shifted exponentials and its normaliser; the quotient is the
  weight, and the last contraction over the keys is the context.
-/
import proofs.«424582_j27659589386439_3_alg».proof.Proof.Gen.ReferenceIdeal.Read
import proofs.«424582_j27659589386439_3_alg».proof.Proof.AttnSpec
import Idealize.ShloMosaic.PureOps.Reduce
import Idealize.ShloMosaic.PureOps.Ideal
import Idealize.ShloMosaic.PureOps.Ideal.Laws
import Idealize.ShloMosaic.Lib.ValueIdx
import Mathlib.Data.Finset.Fold
import Mathlib.Data.EReal.Basic

noncomputable section

namespace Cert.Attention

open Idealize.ShloMosaic Idealize.ShloMosaic.ValueIdx Cert.ReferenceIdeal Cert.ReferenceIdeal.Read

variable (x0 x1 x2 : SQ.Idx → EReal) (x3 : SW.Idx → BitVec 1) (x4 : SW.Idx → EReal)

/-- The score stage at (b, h, q, k): the inner product over the 64 features, times the scale, plus the bias; the fill
    where the mask is set. -/
theorem reference_score (b : Fin 2) (h : Fin 16) (q k : Fin 2048) :
    val_main_v4 (F := Ideal) x0 x1 x3 x4 (ix4 b h q k) = scoreRow x0 x1 x3 x4 b h q k := by
  have el : ∀ d : Fin 64, lidx_main_v0 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v0 (ix4 b h q k) d = ix4 b h k d := fun d => funext fun a => Fin.ext (by
    match a with | ⟨0, _⟩ => rfl | ⟨1, _⟩ => rfl | ⟨2, _⟩ => rfl | ⟨3, _⟩ => rfl)
  rw [val_main_v4_apply, val_main_call0_v1_apply, val_main_call0_v0_apply, val_main_cst_0_apply, val_main_v3_apply,
    val_main_v2_apply, val_main_v0_apply, val_main_v1_apply, val_main_cst_apply]
  simp only [el, er, Ideal.mulf_def, Ideal.addf_def, Ideal.ofBits_def]
  rfl

/-- The key axis is the one the two reductions drop. -/
private theorem dropsKeys : S2x16x2048x2048.Reduces [3] S2x16x2048 := by decide

/-- Inserting the key k into (b, h, q) on the dropped axis gives (b, h, q, k). -/
private theorem lift_keys (b : Fin 2) (h : Fin 16) (q k : Fin 2048) :
    dropsKeys.lift (ix3 b h q) k = ix4 b h q k := funext fun a => Fin.ext (by
  match a with | ⟨0, _⟩ => rfl | ⟨1, _⟩ => rfl | ⟨2, _⟩ => rfl | ⟨3, _⟩ => rfl)

/-- The max-reduce over the keys, then the maximum with the bottom word, is the row's maximum: the fold already
    starts from that word, so it is no smaller. -/
theorem reference_rowMax (b : Fin 2) (h : Fin 16) (q : Fin 2048) :
    val_main_v7 (F := Ideal) x0 x1 x3 x4 (ix3 b h q) = rowMax (scoreRow x0 x1 x3 x4 b h q) := by
  have hrow : val_main_v4 (F := Ideal) x0 x1 x3 x4 ∘ dropsKeys.lift (ix3 b h q) = scoreRow x0 x1 x3 x4 b h q :=
    funext fun k => (congrArg (val_main_v4 (F := Ideal) x0 x1 x3 x4) (lift_keys b h q k)).trans
      (reference_score x0 x1 x3 x4 b h q k)
  have hfold : val_main_v5 (F := Ideal) x0 x1 x3 x4 (ix3 b h q) = rowMax (scoreRow x0 x1 x3 x4 b h q) := by
    unfold val_main_v5
    rw [Host.reduce_eq_fold_single (FloatOps.maximumf (F := Ideal) (φ := .f32)) _ _ _ dropsKeys, hrow]
    rfl
  rw [val_main_v7_apply, val_main_v6_apply, val_main_cst_2_apply, hfold]
  show max negInf (rowMax (scoreRow x0 x1 x3 x4 b h q)) = _
  exact max_eq_right ((Finset.le_fold_max _).2 (Or.inl le_rfl))

/-- The exponential stage at (b, h, q, k): the score's distance below its row's maximum, exponentiated. -/
theorem reference_expShift (b : Fin 2) (h : Fin 16) (q k : Fin 2048) :
    val_main_v11 (F := Ideal) x0 x1 x3 x4 (ix4 b h q k) = expShift (scoreRow x0 x1 x3 x4 b h q) k := by
  have e : idx_main_v8 (idx_main_v9 (ix4 b h q k)) = ix3 b h q := funext fun a => Fin.ext (by
    match a with | ⟨0, _⟩ => rfl | ⟨1, _⟩ => rfl | ⟨2, _⟩ => rfl)
  rw [val_main_v11_apply, val_main_v10_apply, val_main_v9_apply, val_main_v8_apply, e, reference_rowMax, reference_score]
  simp only [Ideal.hostUnary_exp_def, Ideal.subf_def]
  rfl

/-- The sum-reduce over the keys from the zero word is the row's normaliser. -/
theorem reference_expSum (b : Fin 2) (h : Fin 16) (q : Fin 2048) :
    val_main_v12 (F := Ideal) x0 x1 x3 x4 (ix3 b h q) = expSum (scoreRow x0 x1 x3 x4 b h q) := by
  have e : ∀ k : Fin 2048, idx_main_v12 (ix3 b h q) k = ix4 b h q k := fun k => funext fun a => Fin.ext (by
    match a with | ⟨0, _⟩ => rfl | ⟨1, _⟩ => rfl | ⟨2, _⟩ => rfl | ⟨3, _⟩ => rfl)
  rw [val_main_v12_apply, val_main_cst_3_apply, Ideal.ofBits_def, Ideal.ofBits_zero_f32, zero_add]
  exact Finset.sum_congr rfl fun k _ => by rw [e, reference_expShift]

/-- The quotient stage at (b, h, q, k) is the weight there. -/
theorem reference_weights_apply (b : Fin 2) (h : Fin 16) (q k : Fin 2048) :
    val_main_v15 (F := Ideal) x0 x1 x3 x4 (ix4 b h q k) = weights x0 x1 x3 x4 (ix4 b h q k) := by
  have e : idx_main_v13 (idx_main_v14 (ix4 b h q k)) = ix3 b h q := funext fun a => Fin.ext (by
    match a with | ⟨0, _⟩ => rfl | ⟨1, _⟩ => rfl | ⟨2, _⟩ => rfl)
  rw [val_main_v15_apply, val_main_v14_apply, val_main_v13_apply, e, reference_expSum, reference_expShift,
    Ideal.hostDivf_def]
  rfl

/-- The reference's weights are the weights. -/
theorem reference_weights (x0 x1 : SQ.Idx → EReal) (x3 : SW.Idx → BitVec 1) (x4 : SW.Idx → EReal) :
    Cert.ReferenceIdeal.Read.val_main_v15 (F := Ideal) x0 x1 x3 x4 = weights x0 x1 x3 x4 := by
  funext i
  obtain ⟨b, h, q, k, rfl⟩ : ∃ (b : Fin 2) (h : Fin 16) (q k : Fin 2048), i = ix4 b h q k :=
    ⟨i 0, i 1, i 2, i 3, eq_ix4 i⟩
  exact reference_weights_apply x0 x1 x3 x4 b h q k

/-- The reference's result is the context: the last contraction runs over the keys, the weights on the left and the
    values on the right. -/
theorem reference_context (x0 x1 x2 : SQ.Idx → EReal) (x3 : SW.Idx → BitVec 1) (x4 : SW.Idx → EReal) :
    Cert.ReferenceIdeal.Read.val_main_v16 (F := Ideal) x0 x1 x2 x3 x4 = context x0 x1 x2 x3 x4 := by
  funext i
  have el : ∀ k : Fin 2048, lidx_main_v16 i k = ix4 (i 0) (i 1) (i 2) k := fun k => funext fun a => Fin.ext (by
    match a with | ⟨0, _⟩ => rfl | ⟨1, _⟩ => rfl | ⟨2, _⟩ => rfl | ⟨3, _⟩ => rfl)
  have er : ∀ k : Fin 2048, ridx_main_v16 i k = ix4 (i 0) (i 1) k (i 3) := fun k => funext fun a => Fin.ext (by
    match a with | ⟨0, _⟩ => rfl | ⟨1, _⟩ => rfl | ⟨2, _⟩ => rfl | ⟨3, _⟩ => rfl)
  rw [val_main_v16_apply, reference_weights]
  exact Finset.sum_congr rfl fun k _ => by rw [el, er]; rfl

end Cert.Attention

end
-- ==== Proof.AttnFinite.lean ====
/-
  The finiteness precondition, decoded: where the printed predicate holds, every entry of the queries, the keys, the
  values and the bias is a real number.

  The predicate is the conjunction of four tests, one per float argument, each asking that every entry's absolute value
  lie strictly below the positive-infinity word.  On the extended reals that word is the top element, the absolute value
  is the larger of an entry and its negation, and an extended real whose absolute value is below the top is neither
  infinity.
-/
import proofs.«424582_j27659589386439_3_alg».proof.Pre_finite_inputs
import proofs.«424582_j27659589386439_3_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.Attention

open Idealize.ShloMosaic

/-- The rank-0 shape has one index. -/
private instance : Subsingleton Cert.Pre_finite_inputs.S_.Idx := ⟨fun _ _ => funext fun d => d.elim0⟩

/-- The f32 word with an all-ones exponent, a zero fraction and a clear sign is the top element. -/
private theorem posInf_eq_top : Ideal.ofBits .f32 0x7F800000#32 = (⊤ : EReal) := by
  simp [Ideal.ofBits, Ideal.ieee]

/-- An extended real whose absolute value compares strictly below the positive-infinity word is a real number:
    at the bottom element the negation is the top, at the top element the entry itself is. -/
private theorem real_of_abs_lt_posInf (x : EReal)
    (h : Ideal.cmp .olt (max x (-x)) (Ideal.ofBits .f32 0x7F800000#32) = 1#1) : ∃ r : ℝ, x = (r : EReal) := by
  rw [posInf_eq_top] at h
  have hlt : max x (-x) < ⊤ := by
    by_contra hn
    simp [Ideal.cmp, hn] at h
  induction x using EReal.rec with
  | bot => simp at hlt
  | coe r => exact ⟨r, rfl⟩
  | top => simp at hlt

/-- Where the finiteness predicate holds, every entry of the four float arguments is a real number. -/
theorem finite_of_pre (a0 a1 a2 : Cert.Pre_finite_inputs.S2x16x2048x64.Idx → EReal) (a3 : Cert.Pre_finite_inputs.S2x16x2048x2048.Idx → BitVec 1)
    (a4 : Cert.Pre_finite_inputs.S2x16x2048x2048.Idx → EReal)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h012, h4⟩ := IntOp.andi_eq_one.1 h0
  obtain ⟨h01, h2⟩ := IntOp.andi_eq_one.1 h012
  obtain ⟨h0', h1⟩ := IntOp.andi_eq_one.1 h01
  exact ⟨fun i => real_of_abs_lt_posInf (a0 i) (Host.reduce_andi_all _ _ _ _ _ h0' i),
    fun i => real_of_abs_lt_posInf (a1 i) (Host.reduce_andi_all _ _ _ _ _ h1 i),
    fun i => real_of_abs_lt_posInf (a2 i) (Host.reduce_andi_all _ _ _ _ _ h2 i),
    fun i => real_of_abs_lt_posInf (a4 i) (Host.reduce_andi_all _ _ _ _ _ h4 i)⟩

end Cert.Attention

end
-- ==== Proof.lean ====
/-
  Masked softmax attention on f32[2, 16, 2048, 64] queries, keys and values with a boolean mask and an additive bias
  of shape [2, 16, 2048, 2048]: a kernel that hands each grid point 512 query rows of one batch and head against
  all 2048 keys and values, equal over the extended reals to its reference on finite inputs.

  Both programs fill the masked scores with the same finite word, shift each row by its maximum, exponentiate and
  normalise by the row's sum; both return the weights and their product with the values.  They differ in three places,
  each an identity of real arithmetic: the kernel multiplies the queries by the scale 1/8 before the inner product with
  the keys, the reference multiplies the inner product; the kernel forms the reciprocal of a row's sum once and
  multiplies the exponentials by it, the reference divides each exponential by the sum; and the kernel applies that
  reciprocal to the context after summing over the keys, the reference sums the normalised weights against the values.
  On finite inputs every score is a real number, so every row sum is a positive real and the three identities hold
  (AttnLaws.lean); at infinite inputs they may fail, which is why the finiteness precondition is used.

  The kernel's two result arrays are read block by block off its run (AttnKernelBody.lean for what one grid point
  leaves, AttnKernelArrays.lean for the arrays they tile); the reference's two results are read stage by stage
  (AttnReference.lean); the precondition gives that every float entry is real (AttnFinite.lean).  The idealized
  kernel is the kernel's own text read on the extended reals: nothing was rewritten, so nothing is owed for it.
-/
import proofs.«424582_j27659589386439_3_alg».proof.Defs
import proofs.«424582_j27659589386439_3_alg».proof.Proof.Gen.Kernel
import proofs.«424582_j27659589386439_3_alg».proof.Proof.Gen.Kernel.Skeleton
import proofs.«424582_j27659589386439_3_alg».proof.Proof.Gen.Kernel.Launch
import proofs.«424582_j27659589386439_3_alg».proof.Proof.Gen.Kernel.Points
import proofs.«424582_j27659589386439_3_alg».proof.Proof.Gen.Kernel.Frame
import proofs.«424582_j27659589386439_3_alg».proof.Proof.Gen.KernelIdeal
import proofs.«424582_j27659589386439_3_alg».proof.Proof.Gen.KernelIdeal.Skeleton
import proofs.«424582_j27659589386439_3_alg».proof.Proof.Gen.KernelIdeal.Launch
import proofs.«424582_j27659589386439_3_alg».proof.Proof.Gen.KernelIdeal.Points
import proofs.«424582_j27659589386439_3_alg».proof.Proof.Gen.KernelIdeal.Frame
import proofs.«424582_j27659589386439_3_alg».proof.Proof.Gen.ReferenceIdeal
import proofs.«424582_j27659589386439_3_alg».proof.Proof.Gen.Pre_finite_inputs
import proofs.«424582_j27659589386439_3_alg».proof.Proof.Gen.KernelIdeal.Value
import proofs.«424582_j27659589386439_3_alg».proof.Proof.Gen.ReferenceIdeal.Run
import proofs.«424582_j27659589386439_3_alg».proof.Proof.Gen.ReferenceIdeal.Read
import proofs.«424582_j27659589386439_3_alg».proof.Proof.AttnKernelArrays
import proofs.«424582_j27659589386439_3_alg».proof.Proof.AttnLaws
import proofs.«424582_j27659589386439_3_alg».proof.Proof.AttnReference
import proofs.«424582_j27659589386439_3_alg».proof.Proof.AttnFinite
import Idealize.ShloMosaic.Adequacy
import Idealize.ShloMosaic.Init

noncomputable section

namespace Cert.Proof

open Idealize.ShloMosaic Idealize.ShloMosaic.TcCoe Idealize.SL.Sem Cert.Attention

/-- The kernel at the word level runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on finite arguments both programs end with the same context and the same weights:
    the kernel's arrays are the reciprocal arrangement, the reference's the quotient arrangement, and on real
    entries the two are one function. -/
theorem algebraic : Cert.algebraic_KernelIdeal_ReferenceIdeal := by
  intro m ρ m' ρ' hpre hagree
  refine ⟨_, _, kernel_run m ρ, ?_⟩
  refine (θ_run Cert.ReferenceIdeal.defs _ _).mono (fun r h c => ?_) (Cert.ReferenceIdeal.Value.run (F := Ideal) m' ρ')
  obtain ⟨hQ, hK, hV, hB⟩ := finite_of_pre _ _ _ _ _ (hpre c)
  obtain ⟨e0, e1, e2, e3, e4⟩ := hagree c
  refine ⟨(h c).1.trans ?_, (h c).2.1.trans ?_, (h c).2.2⟩
  · rw [Cert.ReferenceIdeal.Read.val_main_v16_eq, e0, e1, e2, e3, e4, reference_context]
    exact (contextRcp_eq_context _ _ _ _ _ hQ hK hV hB).symm
  · rw [Cert.ReferenceIdeal.Read.val_main_v15_eq, e0, e1, e3, e4, reference_weights]
    exact (weightsRcp_eq_weights _ _ _ _ hQ hK hB).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
